-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S1x2048 : Shape := ⟨2, ![1, 2048]⟩
abbrev S10x2048 : Shape := ⟨2, ![10, 2048]⟩
abbrev S10 : Shape := ⟨1, ![10]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1x2048 : S_.BroadcastsInDim S1x2048 (![] : Fin 0 → Fin S1x2048.rank)
  reducesTo_S1x2048_S_d0_1 : S1x2048.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x2048 1) : IVec S_ 1 :=
  let main_c_5 : IVec S_ 1 := constantI S_ 1 1#1
  let main_v17 : IVec S_ 1 := (fun x v => Host.reduce IntOp.andi x v reducesTo_S10x2048_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S16384x512 .f32) (main_arg1 : FVec F S2048x512 .f32) (main_arg2 : FVec F S1x2048 .f32) (main_arg3 : FVec F S10x2048 .f32) (main_arg4 : FVec F S10 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S10x2048 .f32 := Host.absf main_arg3
  let main_cst_4 : FVec F S_ .f32 := constant S_ .f32 0x7F800000#32
  let main_v15 : FVec F S10x2048 .f32 := broadcastInDim S10x2048 ![] bcast_S_S10x2048 main_cst_4
  let main_v16 : IVec S10x2048 1 := cmpf .olt main_v14 main_v15
  fn_part1 (F := F) main_arg4 main_v13 main_v16
-- ==== Kernel.lean ====
abbrev S16384x512 : Shape := ⟨2, ![16384, 512]⟩
abbrev S2048x512 : Shape := ⟨2, ![2048, 512]⟩
abbrev S1x2048 : Shape := ⟨2, ![1, 2048]⟩
abbrev S10x2048 : Shape := ⟨2, ![10, 2048]⟩
abbrev S10 : Shape := ⟨1, ![10]⟩
abbrev S1x10 : Shape := ⟨2, ![1, 10]⟩
abbrev S16384x10 : Shape := ⟨2, ![16384, 10]⟩
abbrev S1024x512 : Shape := ⟨2, ![1024, 512]⟩
abbrev S1x1024 : Shape := ⟨2, ![1, 1024]⟩
abbrev S10x1024 : Shape := ⟨2, ![10, 1024]⟩
abbrev S2048x10 : Shape := ⟨2, ![2048, 10]⟩
abbrev S2048 : Shape := ⟨1, ![2048]⟩
abbrev S2048x1 : Shape := ⟨2, ![2048, 1]⟩
abbrev S1024 : Shape := ⟨1, ![1024]⟩
abbrev S512x1024 : Shape := ⟨2, ![512, 1024]⟩
abbrev S2048x1024 : Shape := ⟨2, ![2048, 1024]⟩
abbrev S1024x10 : Shape := ⟨2, ![1024, 10]⟩

abbrev nBuf : Space → Nat
  | .hbm => 7
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S1x2048, .f32⟩
  | .hbm, ⟨3, _⟩ => ⟨S10x2048, .f32⟩
  | .hbm, ⟨4, _⟩ => ⟨S10, .f32⟩
  | .hbm, ⟨5, _⟩ => ⟨S1x10, .f32⟩
  | .hbm, ⟨6, _⟩ => ⟨S16384x10, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S10x1024, .f32⟩
  | .local _ .vmem, ⟨7, _⟩ => ⟨S10x1024, .f32⟩
  | .local _ .vmem, ⟨8, _⟩ => ⟨S1x10, .f32⟩
  | .local _ .vmem, ⟨9, _⟩ => ⟨S2048x10, .f32⟩
  | .local _ .vmem, ⟨10, _⟩ => ⟨S2048x10, .f32⟩
  | .local _ .vmem, ⟨11, _⟩ => ⟨S2048x10, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S10x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S10_S1x10 : S10.ShapeCasts S1x10
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  reduces_S2048x512_S2048 : S2048x512.Reduces [1] S2048
  shapeCasts_S2048_S2048x1 : S2048.ShapeCasts S2048x1
  reduces_S1024x512_S1024 : S1024x512.Reduces [1] S1024
  bitsLt_bf16_f32 : FTy.bits .bf16 < FTy.bits .f32
  transposes_S1024x512_p1_0_S512x1024 : S1024x512.Transposes [1, 0] S512x1024
  shapeCasts_S1024_S1x1024 : S1024.ShapeCasts S1x1024
  broadcasts_S2048x1_S2048x1024 : S2048x1.Broadcasts S2048x1024
  broadcasts_S1x1024_S2048x1024 : S1x1024.Broadcasts S2048x1024
  inb_S1x1024_S1x1024_0_0 : ∀ a, (![0, 0] : Fin 2 → Nat) a + S1x1024.size a ≤ S1x1024.size a
  h_S1x1024 : 0 < S1x1024.numel
  inb_S10x1024_S10x1024_0_0 : ∀ a, (![0, 0] : Fin 2 → Nat) a + S10x1024.size a ≤ S10x1024.size a
  h_S10x1024 : 0 < S10x1024.numel
  transposes_S10x1024_p1_0_S1024x10 : S10x1024.Transposes [1, 0] S1024x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  dot_S2048x512_S512x1024_S2048x1024_1_0_0_1_n_n_wf : DotDims.WF S2048x512 S512x1024 S2048x1024 [1] [0] [0] [1] [] []
  dot_S2048x1024_S1024x10_S2048x10_1_0_0_1_n_n_wf : DotDims.WF S2048x1024 S1024x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x512.size a
  hwx0_1 : ∀ i : grid0.Coords, EltTy.bits .f32 = 32 ∨ (Rect.block (s := S2048x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10x1024.size a ≤ S10x2048.size a
  hwx0_3 : ∀ i : grid0.Coords, EltTy.bits .f32 = 32 ∨ (Rect.block (s := S10x2048) S10x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x10.size a ≤ S16384x10.size a
  hwx0_5 : ∀ i : grid0.Coords, EltTy.bits .f32 = 32 ∨ (Rect.block (s := S16384x10) S2048x10.size (cc0_transform_5 i) (hinb0_5 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x10_S2048x10_1_0_0_1_n_n : DotDims S2048x1024 S1024x10 S2048x10 where
  lhsContracting := [1]
  rhsContracting := [0]
  lhsNonContracting := [0]
  rhsNonContracting := [1]
  lhsBatch := []
  rhsBatch := []
  wf := dot_S2048x1024_S1024x10_S2048x10_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x512 : Shape := ⟨2, ![16384, 512]⟩
abbrev S2048x512 : Shape := ⟨2, ![2048, 512]⟩
abbrev S1x2048 : Shape := ⟨2, ![1, 2048]⟩
abbrev S10x2048 : Shape := ⟨2, ![10, 2048]⟩
abbrev S10 : Shape := ⟨1, ![10]⟩
abbrev S_ : Shape := ⟨0, ![]⟩
abbrev S16384 : Shape := ⟨1, ![16384]⟩
abbrev S16384x1 : Shape := ⟨2, ![16384, 1]⟩
abbrev S2048 : Shape := ⟨1, ![2048]⟩
abbrev S16384x2048 : Shape := ⟨2, ![16384, 2048]⟩
abbrev S2048x10 : Shape := ⟨2, ![2048, 10]⟩
abbrev S16384x10 : Shape := ⟨2, ![16384, 10]⟩
abbrev S1x10 : Shape := ⟨2, ![1, 10]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S1x2048, .f32⟩
  | .hbm, ⟨3, _⟩ => ⟨S10x2048, .f32⟩
  | .hbm, ⟨4, _⟩ => ⟨S10, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S2048x512, .f32⟩
  | .hbm, ⟨10, _⟩ => ⟨S_, .f32⟩
  | .hbm, ⟨11, _⟩ => ⟨S2048, .f32⟩
  | .hbm, ⟨12, _⟩ => ⟨S16384x2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S2048x10, .f32⟩
  | .hbm, ⟨30, _⟩ => ⟨S16384x10, .f32⟩
  | .hbm, ⟨31, _⟩ => ⟨S1x10, .f32⟩
  | .hbm, ⟨32, _⟩ => ⟨S16384x10, .f32⟩
  | .hbm, ⟨33, _⟩ => ⟨S16384x10, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  transposes_S10x2048_S2048x10_1_0 : S10x2048.Transposes [1, 0] S2048x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x512_S2048x512_S16384x2048_1_1_0_0_n_n_wf : DotDims.WF S16384x512 S2048x512 S16384x2048 [1] [1] [0] [0] [] []
  dot_S16384x2048_S2048x10_S16384x10_1_0_0_1_n_n_wf : DotDims.WF S16384x2048 S2048x10 S16384x10 [1] [0] [0] [1] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf
def dot_S16384x2048_S2048x10_S16384x10_1_0_0_1_n_n : DotDims S16384x2048 S2048x10 S16384x10 where
  lhsContracting := [1]
  rhsContracting := [0]
  lhsNonContracting := [0]
  rhsNonContracting := [1]
  lhsBatch := []
  rhsBatch := []
  wf := dot_S16384x2048_S2048x10_S16384x10_1_0_0_1_n_n_wf

class Facts : Prop extends Facts₀ where

variable [Facts]
-- ==== Proof.Spec.lean ====
/-
  The radial-basis network, as one function of its five argument arrays over the extended reals.

  For a sample row `n` and a centre `k` the squared distance is expanded as `‖xₙ‖² + ‖cₖ‖² − 2·⟨xₙ, cₖ⟩`, clamped
  below at `0`; its square root is scaled by `−βₖ` and exponentiated; the ten outputs of a row are the products of
  that radial row with the rows of `W`, plus the bias. Both programs compute exactly this; the kernel splits the sum
  over the 2048 centres into two halves of 1024 that it adds one after the other onto a zero accumulator, which over
  the extended reals (a commutative monoid under `+`) is the same sum.
-/
import Idealize.ShloMosaic.PureOps.Ideal
import Idealize.ShloMosaic.PureOps.Ideal.Laws
import Idealize.ShloMosaic.Lib.ValueIdx

noncomputable section

namespace Cert.RbfSpec

open Idealize.ShloMosaic Idealize.ShloMosaic.ValueIdx

/-- One radial entry from its four scalars: `nb` the negated width, `xx` and `cc` the squared norms of the sample
    and of the centre, `xc` their inner product: `exp (nb · √(max (xx + cc − 2·xc) 0))`. The literal `2.0` is kept
    as its word: both programs print the same one. -/
def radial (nb xx cc xc : EReal) : EReal :=
  Ideal.exp (nb * Ideal.sqrt (max ((xx + cc) - Ideal.ofBits .f32 0x40000000#32 * xc) 0))

/-- The network's output at row `i 0` and class `i 1`. -/
def G (x : (⟨2, ![16384, 512]⟩ : Shape).Idx → EReal) (c : (⟨2, ![2048, 512]⟩ : Shape).Idx → EReal)
    (be : (⟨2, ![1, 2048]⟩ : Shape).Idx → EReal) (w : (⟨2, ![10, 2048]⟩ : Shape).Idx → EReal)
    (b : (⟨1, ![10]⟩ : Shape).Idx → EReal) : (⟨2, ![16384, 10]⟩ : Shape).Idx → EReal := fun i =>
  (∑ k : Fin 2048, radial (-(be (ix2 (0 : Fin 1) k))) (∑ d : Fin 512, x (ix2 (i 0) d) * x (ix2 (i 0) d))
      (∑ d : Fin 512, c (ix2 k d) * c (ix2 k d)) (∑ d : Fin 512, x (ix2 (i 0) d) * c (ix2 k d)) * w (ix2 (i 1) k))
    + b (ix1 (i 1))

/-- A sum over 2048 centres is the sum over the first 1024 plus the sum over the last 1024. -/
theorem sum_halves (f : Fin 2048 → EReal) :
    ∑ k : Fin 2048, f k
      = (∑ k : Fin 1024, f ⟨k.val, Nat.lt_trans k.isLt (by decide)⟩)
        + ∑ k : Fin 1024, f ⟨1024 + k.val, by have := k.isLt; omega⟩ :=
  Fin.sum_univ_add (a := 1024) (b := 1024) f

/-- The kernel's order of additions: the zero accumulator, then the first half, then the second half, then the bias. -/
theorem halves_onto_zero (f : Fin 2048 → EReal) (b : EReal) :
    ((0 + ∑ k : Fin 1024, f ⟨k.val, Nat.lt_trans k.isLt (by decide)⟩)
        + ∑ k : Fin 1024, f ⟨1024 + k.val, by have := k.isLt; omega⟩) + b
      = (∑ k : Fin 2048, f k) + b := by
  rw [zero_add, sum_halves]

end Cert.RbfSpec

end
-- ==== Proof.RefIsG.lean ====
/-
  The reference program's result, read one operation at a time, is the network function `RbfSpec.G` of its arguments.

  Every host operation is read at an index: the two squared norms are the host's sums over the 512 features (onto a
  zero initial value, which adds nothing), the inner products are the first `dot_general`, the broadcasts only re-index,
  `negate`, `sqrt` and `exp` are the extended reals' functions, and the second `dot_general` is the sum over the
  2048 centres of the radial entry times the transposed weight.
-/
import proofs.«182100_j87239375716416_1_alg».proof.Proof.Gen.ReferenceIdeal.Read
import proofs.«182100_j87239375716416_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ### The composed index maps of the reference's broadcasts and products, as coordinates -/

theorem ix_xx (i : S16384x10.Idx) (k : Fin 2048) (d : Fin 512) :
    idx_main_v1 (idx_main_v2 (idx_main_v7 (lidx_main_v21 i k))) d = ix2 (i 0) d :=
  funext fun a => Fin.ext (by match a with | ⟨0, _⟩ => rfl | ⟨1, _⟩ => rfl)

theorem ix_cc (i : S16384x10.Idx) (k : Fin 2048) (d : Fin 512) :
    idx_main_v4 (idx_main_v6 (idx_main_v8 (lidx_main_v21 i k))) d = ix2 k d :=
  funext fun a => Fin.ext (by match a with | ⟨0, _⟩ => rfl | ⟨1, _⟩ => rfl)

theorem ix_xc_l (i : S16384x10.Idx) (k : Fin 2048) (d : Fin 512) :
    lidx_main_v5 (lidx_main_v21 i k) d = ix2 (i 0) d :=
  funext fun a => Fin.ext (by match a with | ⟨0, _⟩ => rfl | ⟨1, _⟩ => rfl)

theorem ix_xc_r (i : S16384x10.Idx) (k : Fin 2048) (d : Fin 512) :
    ridx_main_v5 (lidx_main_v21 i k) d = ix2 k d :=
  funext fun a => Fin.ext (by match a with | ⟨0, _⟩ => rfl | ⟨1, _⟩ => rfl)

theorem ix_beta (i : S16384x10.Idx) (k : Fin 2048) :
    idx_main_v17 (lidx_main_v21 i k) = ix2 (0 : Fin 1) k :=
  funext fun a => Fin.ext (by match a with | ⟨0, _⟩ => rfl | ⟨1, _⟩ => rfl)

theorem ix_w (i : S16384x10.Idx) (k : Fin 2048) :
    idx_main_v20 (ridx_main_v21 i k) = ix2 (i 1) k :=
  funext fun a => Fin.ext (by match a with | ⟨0, _⟩ => rfl | ⟨1, _⟩ => rfl)

theorem ix_b (i : S16384x10.Idx) :
    idx_main_v22 (idx_main_v23 i) = ix1 (i 1) :=
  funext fun a => Fin.ext (by match a with | ⟨0, _⟩ => rfl)

/-- The reference's last stage is the network function. -/
theorem ref_eq (x0 : (⟨S16384x512, .f32⟩ : BufTy).Contents (Elt Ideal)) (x1 : (⟨S2048x512, .f32⟩ : BufTy).Contents (Elt Ideal))
    (x2 : (⟨S1x2048, .f32⟩ : BufTy).Contents (Elt Ideal)) (x3 : (⟨S10x2048, .f32⟩ : BufTy).Contents (Elt Ideal))
    (x4 : (⟨S10, .f32⟩ : BufTy).Contents (Elt Ideal)) :
    val_main_v24 (F := Ideal) x0 x1 x2 x3 x4 = Cert.RbfSpec.G x0 x1 x2 x3 x4 := by
  funext i
  simp only [val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_cst_2_apply, val_main_v12_apply, val_main_v11_apply,
    val_main_v10_apply, val_main_cst_1_apply, val_main_v9_apply, val_main_v8_apply, val_main_v7_apply,
    val_main_v6_apply, val_main_v5_apply, val_main_v4_apply, val_main_cst_0_apply, val_main_v3_apply,
    val_main_v2_apply, val_main_v1_apply, val_main_cst_apply, val_main_v0_apply,
    ix_xx, ix_cc, ix_xc_l, ix_xc_r, ix_beta, ix_w, ix_b,
    Ideal.addf_def, Ideal.subf_def, Ideal.mulf_def, Ideal.maximumf_def, Ideal.hostUnary_sqrt_def,
    Ideal.hostUnary_exp_def, Ideal.hostNegf_def, Ideal.negf_def, Ideal.ofBits_def, Ideal.ofBits_zero_f32, zero_add]
  rfl

end Cert.ReferenceIdeal.RefValue

end
-- ==== Proof.Pieces.lean ====
/-
  What one run of the kernel body leaves behind, as values.

  At a grid point with centre-tile index 0 the body zeroes the accumulator, reads the zeros back, adds the tile's
  partial product and stores the sum: the accumulator ends at the tile's update of the zero block. At a point with
  centre-tile index 1 it reads the accumulator the point before left, adds its own partial product, stores it, reads
  it back and writes the output block as that sum plus the bias row. Each is the one covering store's value, with
  every load read off the whole buffer it loads from.
-/
import proofs.«182100_j87239375716416_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First centre tile: the accumulator ends at the body's update of the zero block. -/
theorem sout_A (c : Dev nD) (i : grid0.Coords) (arg2 : Memref sig .tc .vmem S2048x512 .f32) (harg2 : arg2.IsWhole) (arg3 : Memref sig .tc .vmem S1024x512 .f32) (harg3 : arg3.IsWhole) (arg4 : Memref sig .tc .vmem S1x1024 .f32) (harg4 : arg4.IsWhole) (arg5 : Memref sig .tc .vmem S10x1024 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x10 .f32) (harg8 : arg8.IsWhole) (hc0 : cond0_0 i) (hc1 : ¬cond0_1 i)
    (x0 : Vec F S2048x512 .f32) (x1 : Vec F S1024x512 .f32) (x2 : Vec F S1x1024 .f32) (x3 : Vec F S10x1024 .f32) (x4 : Vec F S1x10 .f32) :
    sout0_A_0 c i arg2 harg2 arg3 harg3 arg4 harg4 arg5 harg5 arg6 harg6 arg7 harg7 arg8 harg8 hc0 hc1 x0 x1 x2 x3 x4 = k0_pay1 (k0_pay4 x0 x1 x2 x3 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2048x10) hz, View.readCov_unit_zero (S := S2048x10) _ hz]
  simp only [View.readAt_eq_ld, harg2.read_unread, harg3.read_unread, harg4.read_unread, harg5.read_unread,
    View.ld_unit_zero (S := S2048x512) hz, View.ld_unit_zero (S := S1024x512) hz, View.ld_unit_zero (S := S1x1024) hz,
    View.ld_unit_zero (S := S10x1024) hz]

/-- Second centre tile: the output block is the accumulator's update plus the bias row. -/
theorem out_B (c : Dev nD) (i : grid0.Coords) (arg2 : Memref sig .tc .vmem S2048x512 .f32) (harg2 : arg2.IsWhole) (arg3 : Memref sig .tc .vmem S1024x512 .f32) (harg3 : arg3.IsWhole) (arg4 : Memref sig .tc .vmem S1x1024 .f32) (harg4 : arg4.IsWhole) (arg5 : Memref sig .tc .vmem S10x1024 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S2048x10 .f32) (harg8 : arg8.IsWhole) (hc0 : ¬cond0_0 i) (hc1 : cond0_1 i)
    (x0 : Vec F S2048x512 .f32) (x1 : Vec F S1024x512 .f32) (x2 : Vec F S1x1024 .f32) (x3 : Vec F S10x1024 .f32) (x4 : Vec F S1x10 .f32) (xs0 : Vec F S2048x10 .f32) :
    out0_B_5 c i arg2 harg2 arg3 harg3 arg4 harg4 arg5 harg5 arg6 harg6 arg7 harg7 arg8 harg8 hc0 hc1 x0 x1 x2 x3 x4 xs0 = k0_pay2 (k0_pay1 (k0_pay4 x0 x1 x2 x3 xs0)) x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S2048x10) hz, View.readCov_unit_zero (S := S2048x10) _ hz]
  simp only [View.readAt_eq_ld, harg2.read_unread, harg3.read_unread, harg4.read_unread, harg5.read_unread,
    harg6.read_unread, harg8.read_unread,
    View.ld_unit_zero (S := S2048x512) hz, View.ld_unit_zero (S := S1024x512) hz, View.ld_unit_zero (S := S1x1024) hz,
    View.ld_unit_zero (S := S10x1024) hz, View.ld_unit_zero (S := S1x10) hz, View.ld_unit_zero (S := S2048x10) hz]

end Cert.KernelIdeal.Pieces

end
-- ==== Proof.Payload.lean ====
/-
  The kernel body's arithmetic, read at one entry of its 2048 × 10 accumulator block, over the extended reals.

  From a 2048 × 512 block of samples, a 1024 × 512 block of centres, the matching 1 × 1024 widths and 10 × 1024
  weights, the body adds to the accumulator's entry `(r, j)` the sum over the tile's 1024 centres `k` of the radial
  entry of sample `r` and centre `k` times the weight `(j, k)`. The squared norms are lane sums, the inner products a
  matrix product with the transposed centres, the width's sign is flipped by subtracting it from zero, and the changes
  of float format are the identity. The output store adds the bias row.
-/
import proofs.«182100_j87239375716416_1_alg».proof.Proof.Gen.KernelIdeal.Skeleton
import proofs.«182100_j87239375716416_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx

/-! ### Two column forms of the layout operations -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The two lane sums -/

/-- The squared norm of sample row `r` of the block. -/
theorem sqnorm_x (x0 : FVec Ideal S2048x512 .f32) (r : Fin 2048) :
    multiReduction (F := Ideal) .add [1] S2048 (mulf x0 x0) 0x00000000#32 reduces_S2048x512_S2048 (.inl rfl) rfl (ix1 r)
      = ∑ d : Fin 512, x0 (ix2 r d) * x0 (ix2 r d) := by
  refine (Ideal.multiReduction_add_single (mulf x0 x0) 0x00000000#32 reduces_S2048x512_S2048 (.inl rfl) rfl (ix1 r)).trans ?_
  refine Finset.sum_congr rfl fun d _ => ?_
  have e : reduces_S2048x512_S2048.lift (ix1 r) d = ix2 r d :=
    funext fun a => Fin.ext (by match a with | ⟨0, _⟩ => rfl | ⟨1, _⟩ => rfl)
  rw [e]; rfl

/-- The squared norm of centre row `k` of the block. -/
theorem sqnorm_c (x1 : FVec Ideal S1024x512 .f32) (k : Fin 1024) :
    multiReduction (F := Ideal) .add [1] S1024 (mulf x1 x1) 0x00000000#32 reduces_S1024x512_S1024 (.inl rfl) rfl (ix1 k)
      = ∑ d : Fin 512, x1 (ix2 k d) * x1 (ix2 k d) := by
  refine (Ideal.multiReduction_add_single (mulf x1 x1) 0x00000000#32 reduces_S1024x512_S1024 (.inl rfl) rfl (ix1 k)).trans ?_
  refine Finset.sum_congr rfl fun d _ => ?_
  have e : reduces_S1024x512_S1024.lift (ix1 k) d = ix2 k d :=
    funext fun a => Fin.ext (by match a with | ⟨0, _⟩ => rfl | ⟨1, _⟩ => rfl)
  rw [e]; rfl

/-! ### The two matrix products -/

theorem lhs_xc_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs_xc_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs_xc_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs_xc_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The product with a zero accumulator, read at `(p, q)`: the sum over the contracted axis. -/
theorem matmul_xc_apply (l : FVec Ideal S2048x512 .bf16) (r : FVec Ideal S512x1024 .bf16) (p : Fin 2048) (q : Fin 1024) :
    matmul (F := Ideal) dot_S2048x512_S512x1024_S2048x1024_1_0_0_1_n_n none l r (constant (F := Ideal) S2048x1024 .f32 0x00000000#32) (ix2 p q)
      = ∑ k : Fin 512, l (ix2 p k) * r (ix2 k q) := by
  refine (Ideal.matmul_constant_zero_apply dot_S2048x512_S512x1024_S2048x1024_1_0_0_1_n_n none l r (ix2 p q)).trans ?_
  rw [← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 p q) ((ValueIdx.contrEquiv1 dot_S2048x512_S512x1024_S2048x1024_1_0_0_1_n_n 512 rfl rfl).symm k) = ix2 p k := funext fun a => Fin.ext (by
    match a with
    | ⟨0, _⟩ => exact lhs_xc_0 _ _
    | ⟨1, _⟩ => exact (lhs_xc_1 _ _).trans hk)
  have er : dot_S2048x512_S512x1024_S2048x1024_1_0_0_1_n_n.rhsIdx (ix2 p q) ((ValueIdx.contrEquiv1 dot_S2048x512_S512x1024_S2048x1024_1_0_0_1_n_n 512 rfl rfl).symm k) = ix2 k q := funext fun a => Fin.ext (by
    match a with
    | ⟨0, _⟩ => exact (rhs_xc_0 _ _).trans hk
    | ⟨1, _⟩ => exact rhs_xc_1 _ _)
  rw [el, er]

theorem lhs_rw_0 (i : S2048x10.Idx) (q : dot_S2048x1024_S1024x10_S2048x10_1_0_0_1_n_n.contr.Idx) :
    (dot_S2048x1024_S1024x10_S2048x10_1_0_0_1_n_n.lhsIdx i q 0).val = (i 0).val := by
  unfold DotDims.lhsIdx
  rw [dif_neg (show ¬(0 : Fin S2048x1024.rank) ∈ dot_S2048x1024_S1024x10_S2048x10_1_0_0_1_n_n.lhsBatch by decide), dif_pos (show (0 : Fin S2048x1024.rank) ∈ dot_S2048x1024_S1024x10_S2048x10_1_0_0_1_n_n.lhsNonContracting by decide)]
  rfl
theorem lhs_rw_1 (i : S2048x10.Idx) (q : dot_S2048x1024_S1024x10_S2048x10_1_0_0_1_n_n.contr.Idx) :
    (dot_S2048x1024_S1024x10_S2048x10_1_0_0_1_n_n.lhsIdx i q 1).val = (q ⟨0, by decide⟩).val :=
  dot_S2048x1024_S1024x10_S2048x10_1_0_0_1_n_n.lhsIdx_val_of_single rfl i q
theorem rhs_rw_0 (i : S2048x10.Idx) (q : dot_S2048x1024_S1024x10_S2048x10_1_0_0_1_n_n.contr.Idx) :
    (dot_S2048x1024_S1024x10_S2048x10_1_0_0_1_n_n.rhsIdx i q 0).val = (q ⟨0, by decide⟩).val :=
  dot_S2048x1024_S1024x10_S2048x10_1_0_0_1_n_n.rhsIdx_val_of_single rfl i q
theorem rhs_rw_1 (i : S2048x10.Idx) (q : dot_S2048x1024_S1024x10_S2048x10_1_0_0_1_n_n.contr.Idx) :
    (dot_S2048x1024_S1024x10_S2048x10_1_0_0_1_n_n.rhsIdx i q 1).val = (i 1).val := by
  unfold DotDims.rhsIdx
  rw [dif_neg (show ¬(1 : Fin S1024x10.rank) ∈ dot_S2048x1024_S1024x10_S2048x10_1_0_0_1_n_n.rhsBatch by decide), dif_pos (show (1 : Fin S1024x10.rank) ∈ dot_S2048x1024_S1024x10_S2048x10_1_0_0_1_n_n.rhsNonContracting by decide)]
  rfl

/-- The product with a zero accumulator, read at `(p, q)`: the sum over the contracted axis. -/
theorem matmul_rw_apply (l : FVec Ideal S2048x1024 .bf16) (r : FVec Ideal S1024x10 .bf16) (p : Fin 2048) (q : Fin 10) :
    matmul (F := Ideal) dot_S2048x1024_S1024x10_S2048x10_1_0_0_1_n_n none l r (constant (F := Ideal) S2048x10 .f32 0x00000000#32) (ix2 p q)
      = ∑ k : Fin 1024, l (ix2 p k) * r (ix2 k q) := by
  refine (Ideal.matmul_constant_zero_apply dot_S2048x1024_S1024x10_S2048x10_1_0_0_1_n_n none l r (ix2 p q)).trans ?_
  rw [← Equiv.sum_comp (ValueIdx.contrEquiv1 dot_S2048x1024_S1024x10_S2048x10_1_0_0_1_n_n 1024 rfl rfl).symm]
  refine Finset.sum_congr rfl fun k _ => ?_
  have hk := ValueIdx.contrEquiv1_symm_val dot_S2048x1024_S1024x10_S2048x10_1_0_0_1_n_n 1024 rfl rfl k
  have el : dot_S2048x1024_S1024x10_S2048x10_1_0_0_1_n_n.lhsIdx (ix2 p q) ((ValueIdx.contrEquiv1 dot_S2048x1024_S1024x10_S2048x10_1_0_0_1_n_n 1024 rfl rfl).symm k) = ix2 p k := funext fun a => Fin.ext (by
    match a with
    | ⟨0, _⟩ => exact lhs_rw_0 _ _
    | ⟨1, _⟩ => exact (lhs_rw_1 _ _).trans hk)
  have er : dot_S2048x1024_S1024x10_S2048x10_1_0_0_1_n_n.rhsIdx (ix2 p q) ((ValueIdx.contrEquiv1 dot_S2048x1024_S1024x10_S2048x10_1_0_0_1_n_n 1024 rfl rfl).symm k) = ix2 k q := funext fun a => Fin.ext (by
    match a with
    | ⟨0, _⟩ => exact (rhs_rw_0 _ _).trans hk
    | ⟨1, _⟩ => exact rhs_rw_1 _ _)
  rw [el, er]

/-! ### The body's values at an entry -/

/-- The accumulator's update at entry `(r, j)`: the old entry plus the tile's 1024 radial-times-weight products. -/
theorem pay4_apply (x0 : Vec Ideal S2048x512 .f32) (x1 : Vec Ideal S1024x512 .f32) (x2 : Vec Ideal S1x1024 .f32)
    (x3 : Vec Ideal S10x1024 .f32) (acc : Vec Ideal S2048x10 .f32) (r : Fin 2048) (j : Fin 10) :
    k0_pay4 (F := Ideal) x0 x1 x2 x3 acc (ix2 r j)
      = acc (ix2 r j) + ∑ k : Fin 1024, RbfSpec.radial (-(x2 (ix2 (0 : Fin 1) k)))
          (∑ d : Fin 512, x0 (ix2 r d) * x0 (ix2 r d)) (∑ d : Fin 512, x1 (ix2 k d) * x1 (ix2 k d))
          (∑ d : Fin 512, x0 (ix2 r d) * x1 (ix2 k d)) * x3 (ix2 j k) := by
  unfold k0_pay4
  refine (congrArg (acc (ix2 r j) + ·) (matmul_rw_apply _ _ r j)).trans ?_
  refine congrArg (acc (ix2 r j) + ·) (Finset.sum_congr rfl fun k _ => ?_)
  refine congrArg₂ (· * ·) ?_ (transpose_ix2_apply _ _ k j)
  unfold RbfSpec.radial
  refine congrArg Ideal.exp (congrArg₂ (· * ·) ?_ (congrArg Ideal.sqrt (congrArg₂ max
    (congrArg₂ (· - ·) (congrArg₂ (· + ·) ?_ ?_) (congrArg₂ (· * ·) rfl ?_)) ?_)))
  · -- the width's sign, flipped by subtracting from zero
    refine (broadcastTo_1b_ab_apply _ _ r k).trans ?_
    show Ideal.ofBits .f32 0x00000000#32 - x2 (ix2 (0 : Fin 1) k) = _
    rw [Ideal.ofBits_zero_f32, zero_sub]
  · exact (broadcastTo_a1_ab_apply _ _ r k).trans ((shapeCast_a_a1_apply _ _ r 0).trans (sqnorm_x x0 r))
  · exact (broadcastTo_1b_ab_apply _ _ r k).trans ((shapeCast_a_1a_apply _ _ 0 k).trans (sqnorm_c x1 k))
  · exact (matmul_xc_apply _ _ r k).trans
      (Finset.sum_congr rfl fun d _ => congrArg₂ (· * ·) rfl (transpose_ix2_apply _ _ d k))
  · exact Ideal.ofBits_zero_f32

/-- The reset stores zeros. -/
theorem pay3_apply (i : S2048x10.Idx) : (k0_pay3 (F := Ideal)) i = 0 := by
  unfold k0_pay3
  rw [shapeCast_self]
  exact Ideal.ofBits_zero_f32

/-- The accumulator's store is its value unchanged. -/
theorem pay1_eq (v : FVec Ideal S2048x10 .f32) : k0_pay1 (F := Ideal) v = v := by
  unfold k0_pay1
  exact shapeCast_self _ _

/-- The output store at entry `(r, j)`: the accumulator's entry plus the bias `j`. -/
theorem pay2_apply (a : Vec Ideal S2048x10 .f32) (bb : Vec Ideal S1x10 .f32) (r : Fin 2048) (j : Fin 10) :
    k0_pay2 (F := Ideal) a bb (ix2 r j) = a (ix2 r j) + bb (ix2 (0 : Fin 1) j) := by
  unfold k0_pay2
  refine congrArg (a (ix2 r j) + ·) ?_
  refine (broadcastTo_1b_ab_apply _ _ r j).trans ?_
  rw [shapeCast_self]

end Cert.KernelIdeal.Payload

end
-- ==== Proof.Blocks.lean ====
/-
  From what the grid points leave to the result array.

  Point `t` of the 16-point grid handles sample tile `t / 2` (rows `2048·(t/2) …`) and centre tile `t % 2` (centres
  `1024·(t%2) …`); every input block is the matching restriction of its argument array, and the bias block is the
  bias vector reshaped to one row. At an odd point the output block holds, at entry `(r, j)`, the zero accumulator
  plus the first 1024 centres' terms, plus the last 1024 centres' terms, plus the bias: the network's entry
  `(2048·(t/2) + r, j)`. Only odd points write back, each to its own sample tile, and together they cover every row.
-/
import proofs.«182100_j87239375716416_1_alg».proof.Proof.Gen.KernelIdeal.Value
import proofs.«182100_j87239375716416_1_alg».proof.Proof.Pieces
import proofs.«182100_j87239375716416_1_alg».proof.Proof.Payload
import proofs.«182100_j87239375716416_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The five argument arrays on core `c`, at their literal shapes. -/
abbrev argX (c : Dev nD) : Vec Ideal S16384x512 .f32 := m ((c : Thread nD τ).loc main_arg0)
abbrev argC (c : Dev nD) : Vec Ideal S2048x512 .f32 := m ((c : Thread nD τ).loc main_arg1)
abbrev argBeta (c : Dev nD) : Vec Ideal S1x2048 .f32 := m ((c : Thread nD τ).loc main_arg2)
abbrev argW (c : Dev nD) : Vec Ideal S10x2048 .f32 := m ((c : Thread nD τ).loc main_arg3)
abbrev argB (c : Dev nD) : Vec Ideal S10 .f32 := m ((c : Thread nD τ).loc main_arg4)

/-- The input blocks at point `t`, at their literal shapes. -/
abbrev xblk (c : Dev nD) (t : Fin cfg0.N) : Vec Ideal S2048x512 .f32 := iblk m c 0 t
abbrev cblk (c : Dev nD) (t : Fin cfg0.N) : Vec Ideal S1024x512 .f32 := iblk m c 1 t
abbrev betablk (c : Dev nD) (t : Fin cfg0.N) : Vec Ideal S1x1024 .f32 := iblk m c 2 t
abbrev wblk (c : Dev nD) (t : Fin cfg0.N) : Vec Ideal S10x1024 .f32 := iblk m c 3 t
abbrev biasblk (c : Dev nD) (t : Fin cfg0.N) : Vec Ideal S1x10 .f32 := iblk m c 4 t

/-- The printed index maps over the grid: point `t` is sample tile `t / 2` and centre tile `t % 2`. -/
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = 0 ∧ win0_2.index t (1 : Fin 2) = t.val % 2
    ∧ win0_3.index t (0 : Fin 2) = 0 ∧ win0_3.index t (1 : Fin 2) = t.val % 2
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-! ### The input blocks are restrictions of the argument arrays -/

/-- A sample block's entry is the sample array's, 2048 rows per tile. -/
theorem xblk_apply (c : Dev nD) (t : Fin cfg0.N) (r : Fin 2048) (d : Fin 512) (n : Fin 16384)
    (hn : n.val = 2048 * (t.val / 2) + r.val) :
    xblk m c t (ix2 r d) = argX m c (ix2 n d) := by
  show V m c main_arg0 (((cfg0.win 0).blk t).view.emb (ix2 r d)) = _
  rw [V_main_arg0]
  refine congrArg (argX m c) (funext fun a => Fin.ext ?_)
  obtain ⟨e0, e1, -⟩ := idx_facts t
  match a with
  | ⟨0, _⟩ => show win0_0.index t (0 : Fin 2) * 2048 + 1 * r.val = n.val; omega
  | ⟨1, _⟩ => show win0_0.index t (1 : Fin 2) * 512 + 1 * d.val = d.val; omega

/-- A centre block's entry is the centre array's, 1024 rows per tile. -/
theorem cblk_apply (c : Dev nD) (t : Fin cfg0.N) (k : Fin 1024) (d : Fin 512) (k' : Fin 2048)
    (hk : k'.val = 1024 * (t.val % 2) + k.val) :
    cblk m c t (ix2 k d) = argC m c (ix2 k' d) := by
  show V m c main_arg1 (((cfg0.win 1).blk t).view.emb (ix2 k d)) = _
  rw [V_main_arg1]
  refine congrArg (argC m c) (funext fun a => Fin.ext ?_)
  obtain ⟨-, -, e0, e1, -⟩ := idx_facts t
  match a with
  | ⟨0, _⟩ => show win0_1.index t (0 : Fin 2) * 1024 + 1 * k.val = k'.val; omega
  | ⟨1, _⟩ => show win0_1.index t (1 : Fin 2) * 512 + 1 * d.val = d.val; omega

/-- A width block's entry is the width row's, 1024 columns per tile. -/
theorem betablk_apply (c : Dev nD) (t : Fin cfg0.N) (k : Fin 1024) (k' : Fin 2048)
    (hk : k'.val = 1024 * (t.val % 2) + k.val) :
    betablk m c t (ix2 (0 : Fin 1) k) = argBeta m c (ix2 (0 : Fin 1) k') := by
  show V m c main_arg2 (((cfg0.win 2).blk t).view.emb (ix2 (0 : Fin 1) k)) = _
  rw [V_main_arg2]
  refine congrArg (argBeta m c) (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 1024 + 1 * k.val = k'.val; omega

/-- A weight block's entry is the weight array's, 1024 columns per tile. -/
theorem wblk_apply (c : Dev nD) (t : Fin cfg0.N) (j : Fin 10) (k : Fin 1024) (k' : Fin 2048)
    (hk : k'.val = 1024 * (t.val % 2) + k.val) :
    wblk m c t (ix2 j k) = argW m c (ix2 j k') := by
  show V m c main_arg3 (((cfg0.win 3).blk t).view.emb (ix2 j k)) = _
  rw [V_main_arg3]
  refine congrArg (argW m c) (funext fun a => Fin.ext ?_)
  obtain ⟨-, -, -, -, -, -, e0, e1, -⟩ := idx_facts t
  match a with
  | ⟨0, _⟩ => show win0_3.index t (0 : Fin 2) * 10 + 1 * j.val = j.val; omega
  | ⟨1, _⟩ => show win0_3.index t (1 : Fin 2) * 1024 + 1 * k.val = k'.val; omega

/-- The bias block is the bias vector, which the host reshaped to one row before the call. -/
theorem biasblk_apply (c : Dev nD) (t : Fin cfg0.N) (j : Fin 10) :
    biasblk m c t (ix2 (0 : Fin 1) j) = argB m c (ix1 j) := by
  show V m c main_v0 (((cfg0.win 4).blk t).view.emb (ix2 (0 : Fin 1) j)) = _
  have e : (V m c main_v0 : S1x10.Idx → EReal) = shapeCast S1x10 (argB m c) shapeCasts_S10_S1x10 := by
    dsimp only [Gen.V, Gen.hostOps0]; after_results; rfl
  rw [e]
  have ei : ((cfg0.win 4).blk t).view.emb (ix2 (0 : Fin 1) j) = ix2 (0 : Fin 1) j := funext fun a => Fin.ext (by
    obtain ⟨-, -, -, -, -, -, -, -, e0, e1, -⟩ := idx_facts t
    match a with
    | ⟨0, _⟩ => show win0_4.index t (0 : Fin 2) * 1 + 1 * 0 = 0; omega
    | ⟨1, _⟩ => show win0_4.index t (1 : Fin 2) * 10 + 1 * j.val = j.val; omega)
  rw [ei]
  exact shapeCast_a_1a_apply _ _ 0 j

/-! ### What the accumulator and the output block hold -/

/-- After a point of the first centre tile the accumulator holds that tile's update of the zero block. -/
theorem acc_even (c : Dev nD) (n : ℕ) (hn : n < cfg0.N) (h0 : n % 2 = 0) :
    (outsAt0 m c n hn).2 = k0_pay1 (k0_pay4 (xblk m c ⟨n, hn⟩) (cblk m c ⟨n, hn⟩) (betablk m c ⟨n, hn⟩) (wblk m c ⟨n, hn⟩) (k0_pay3 (F := Ideal))) := by
  have h1 : ¬n % 2 = 1 := by omega
  rw [outsAt0_A m c ⟨n, hn⟩ h0 h1]; dsimp only
  exact Pieces.sout_A (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (xblk m c ⟨n, hn⟩) (cblk m c ⟨n, hn⟩) (betablk m c ⟨n, hn⟩) (wblk m c ⟨n, hn⟩) (biasblk m c ⟨n, hn⟩)

/-- After a point of the second centre tile the output block holds both tiles' updates of the zero block, plus the bias. -/
theorem out_odd (c : Dev nD) (t : Fin cfg0.N) (h1 : t.val % 2 = 1) :
    (outsAt0 m c t.val t.isLt).1
      = k0_pay2 (k0_pay1 (k0_pay4 (xblk m c t) (cblk m c t) (betablk m c t) (wblk m c t)
          (k0_pay1 (k0_pay4 (xblk m c ⟨t.val - 1, Nat.lt_of_le_of_lt (Nat.sub_le _ _) t.isLt⟩) (cblk m c ⟨t.val - 1, Nat.lt_of_le_of_lt (Nat.sub_le _ _) t.isLt⟩)
            (betablk m c ⟨t.val - 1, Nat.lt_of_le_of_lt (Nat.sub_le _ _) t.isLt⟩) (wblk m c ⟨t.val - 1, Nat.lt_of_le_of_lt (Nat.sub_le _ _) t.isLt⟩) (k0_pay3 (F := Ideal))))))
          (biasblk m c t) := by
  have h0 : ¬t.val % 2 = 0 := by omega
  rw [outsAt0_B m c t h0 h1]; dsimp only
  refine (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (cblk m c t) (betablk m c t) (wblk m c t) (biasblk m c t) (outsAt0 m c (t.val - 1) (Nat.lt_of_le_of_lt (Nat.sub_le _ _) t.isLt)).2).trans ?_
  exact congrArg (fun a => k0_pay2 (k0_pay1 (k0_pay4 (xblk m c t) (cblk m c t) (betablk m c t) (wblk m c t) a)) (biasblk m c t))
    (acc_even m c (t.val - 1) (Nat.lt_of_le_of_lt (Nat.sub_le _ _) t.isLt) (by omega))

/-! ### An output entry is the network's -/

/-- One radial-times-weight term of a tile is the network's term at that tile's centre. -/
theorem term_eq (c : Dev nD) (s : Fin cfg0.N) (r : Fin 2048) (j : Fin 10) (n : Fin 16384)
    (hn : n.val = 2048 * (s.val / 2) + r.val) (k : Fin 1024) (k' : Fin 2048) (hk : k'.val = 1024 * (s.val % 2) + k.val) :
    RbfSpec.radial (-(betablk m c s (ix2 (0 : Fin 1) k)))
        (∑ d : Fin 512, xblk m c s (ix2 r d) * xblk m c s (ix2 r d))
        (∑ d : Fin 512, cblk m c s (ix2 k d) * cblk m c s (ix2 k d))
        (∑ d : Fin 512, xblk m c s (ix2 r d) * cblk m c s (ix2 k d)) * wblk m c s (ix2 j k)
      = RbfSpec.radial (-(argBeta m c (ix2 (0 : Fin 1) k')))
        (∑ d : Fin 512, argX m c (ix2 n d) * argX m c (ix2 n d))
        (∑ d : Fin 512, argC m c (ix2 k' d) * argC m c (ix2 k' d))
        (∑ d : Fin 512, argX m c (ix2 n d) * argC m c (ix2 k' d)) * argW m c (ix2 j k') := by
  have ex : ∀ d, xblk m c s (ix2 r d) = argX m c (ix2 n d) := fun d => xblk_apply m c s r d n hn
  have ec : ∀ d, cblk m c s (ix2 k d) = argC m c (ix2 k' d) := fun d => cblk_apply m c s k d k' hk
  rw [betablk_apply m c s k k' hk, wblk_apply m c s j k k' hk]
  simp only [ex, ec]

/-- The output block of sample tile `t / 2`, written at the tile's second point, holds the network's rows. -/
theorem out_entry (c : Dev nD) (t : Fin cfg0.N) (h1 : t.val % 2 = 1) (r : Fin 2048) (j : Fin 10) (n : Fin 16384)
    (hn : n.val = 2048 * (t.val / 2) + r.val) :
    (outsAt0 m c t.val t.isLt).1 (ix2 r j) = RbfSpec.G (argX m c) (argC m c) (argBeta m c) (argW m c) (argB m c) (ix2 n j) := by
  rw [out_odd m c t h1]
  refine (Payload.pay2_apply _ _ r j).trans ?_
  rw [Payload.pay1_eq, Payload.pay1_eq, Payload.pay4_apply, Payload.pay4_apply, Payload.pay3_apply, biasblk_apply]
  refine Eq.trans ?_ (RbfSpec.halves_onto_zero (fun k' => RbfSpec.radial (-(argBeta m c (ix2 (0 : Fin 1) k')))
    (∑ d : Fin 512, argX m c (ix2 n d) * argX m c (ix2 n d)) (∑ d : Fin 512, argC m c (ix2 k' d) * argC m c (ix2 k' d))
    (∑ d : Fin 512, argX m c (ix2 n d) * argC m c (ix2 k' d)) * argW m c (ix2 j k')) (argB m c (ix1 j)))
  refine congrArg (· + argB m c (ix1 j)) (congrArg₂ (· + ·) (congrArg (0 + ·) (Finset.sum_congr rfl fun k _ => ?_))
    (Finset.sum_congr rfl fun k _ => ?_))
  · exact term_eq m c ⟨t.val - 1, Nat.lt_of_le_of_lt (Nat.sub_le _ _) t.isLt⟩ r j n (by dsimp only; omega) k _ (by dsimp only; omega)
  · exact term_eq m c t r j n hn k _ (by dsimp only; omega)

/-! ### From the blocks to the array -/

/-- What a writing point writes back is its block of the network function of the argument arrays. -/
theorem flushed_eq (c : Dev nD) (t : Fin cfg0.N) (hf : (cfg0.win 5).flush t = true) :
    (dats m 0 c).flushed 5 t = ((cfg0.win 5).blk t).view.read (Elt Ideal) (RbfSpec.G (argX m c) (argC m c) (argBeta m c) (argW m c) (argB m c)) := by
  have h1 : t.val % 2 = 1 := (flush0_5 t).mp hf
  have hN : t.val < 16 := lt_of_lt_of_eq t.isLt (show cfg0.N = 16 from N_0)
  rw [flushed5]
  funext y
  have hy0 : (y 0).val < 2048 := (y 0).isLt
  have hy1 : (y 1).val < 10 := (y 1).isLt
  show (outsAt0 m c t.val t.isLt).1 ((cfg0.win 5).xinj (grid0.coords t) y)
    = RbfSpec.G (argX m c) (argC m c) (argBeta m c) (argW m c) (argB m c) (((cfg0.win 5).blk t).view.emb y)
  have ey : (cfg0.win 5).xinj (grid0.coords t) y = ix2 (⟨(y 0).val, hy0⟩ : Fin 2048) (⟨(y 1).val, hy1⟩ : Fin 10) :=
    funext fun a => Fin.ext (by match a with | ⟨0, _⟩ => rfl | ⟨1, _⟩ => rfl)
  refine (congrArg (outsAt0 m c t.val t.isLt).1 ey).trans ?_
  refine (out_entry m c t h1 ⟨(y 0).val, hy0⟩ ⟨(y 1).val, hy1⟩ ⟨2048 * (t.val / 2) + (y 0).val, by omega⟩ rfl).trans ?_
  refine congrArg (RbfSpec.G (argX m c) (argC m c) (argBeta m c) (argW m c) (argB m c)) (funext fun a => Fin.ext ?_)
  obtain ⟨-, -, -, -, -, -, -, -, -, -, e0, e1⟩ := idx_facts t
  match a with
  | ⟨0, _⟩ => show 2048 * (t.val / 2) + (y 0).val = win0_5.index t (0 : Fin 2) * 2048 + 1 * (y 0).val; omega
  | ⟨1, _⟩ => show (y 1).val = win0_5.index t (1 : Fin 2) * 10 + 1 * (y 1).val; omega

/-- An index of the array is in point `t`'s block iff each coordinate is in the block's range on its axis. -/
theorem mem_blk (t : Fin cfg0.N) (i : S16384x10.Idx) :
    i ∈ ((cfg0.win 5).blk t).view.set ↔ ∀ a : Fin 2, win0_5.index t a * S2048x10.size a ≤ (i a).val ∧ (i a).val < win0_5.index t a * S2048x10.size a + S2048x10.size a := by
  show i ∈ ((View.whole main_v1).slice (win0_5.rect t)).set ↔ _
  rw [View.set_slice_whole, Rect.mem_set_unit]
  exact Iff.rfl

/-- After the run the result array is the network function of the argument arrays: row `n` is written by the second
    point of sample tile `n / 2048`. -/
theorem final (c : Dev nD) : (dats m 0 c).arrAt 5 cfg0.N = RbfSpec.G (argX m c) (argC m c) (argBeta m c) (argW m c) (argB m c) :=
  (dats m 0 c).arrAt_eq_of_cover 5 (RbfSpec.G (argX m c) (argC m c) (argBeta m c) (argW m c) (argB m c)) (flushed_eq m c) fun i => by
    have hi0 : (i 0).val < 16384 := (i 0).isLt
    have hi1 : (i 1).val < 10 := (i 1).isLt
    have hN : cfg0.N = 16 := N_0
    refine ⟨⟨2 * ((i 0).val / 2048) + 1, by omega⟩, (flush0_5 _).mpr (by dsimp only; omega), ?_⟩
    rw [mem_blk]
    obtain ⟨-, -, -, -, -, -, -, -, -, -, e0, e1⟩ := idx_facts ⟨2 * ((i 0).val / 2048) + 1, by omega⟩
    intro a
    match a with
    | ⟨0, _⟩ =>
      show win0_5.index _ (0 : Fin 2) * 2048 ≤ (i 0).val ∧ (i 0).val < win0_5.index _ (0 : Fin 2) * 2048 + 2048
      rw [e0]; dsimp only; omega
    | ⟨1, _⟩ =>
      show win0_5.index _ (1 : Fin 2) * 10 ≤ (i 1).val ∧ (i 1).val < win0_5.index _ (1 : Fin 2) * 10 + 10
      rw [e1]; omega

/-- The kernel's run, read: the result array at the network function of the arguments, the arguments unchanged. -/
theorem run : θ_run defs (onTc (τ := τ) (main (F := Ideal))) ⟨m, fun _ => 0, ρ⟩ fun r => ∀ c : Dev nD,
      r.2.mem ((c : Thread nD τ).loc main_v1) = RbfSpec.G (argX m c) (argC m c) (argBeta m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Blocks

end
-- ==== Proof.lean ====
/-
  A radial-basis network, `exp (−βₖ · ‖xₙ − cₖ‖) · Wᵀ + b` over 16384 samples, 2048 centres, 512 features and
  10 classes, with the distance expanded as `√(max (‖xₙ‖² + ‖cₖ‖² − 2⟨xₙ, cₖ⟩) 0)`.

  The kernel walks a grid of 8 sample tiles (2048 rows) by 2 centre tiles (1024 centres): at the first centre tile
  it zeroes a 2048 × 10 accumulator and adds the tile's radial-times-weight products, at the second it adds that
  tile's products and writes the accumulator plus the bias as the tile's output block. The reference computes the
  whole 16384 × 2048 radial matrix and one product with `Wᵀ`.

  Over the extended reals both are one function `RbfSpec.G` of the five arguments: the reference by reading its
  operations one at a time (`RefValue.ref_eq`), the kernel by reading what each grid point leaves (`Pieces`), the
  body's arithmetic at an entry (`Payload`), and the blocks against the arrays (`Blocks`). The one law used is
  that a sum over 2048 centres is the sum over the first 1024 plus the sum over the last 1024, added onto zero;
  negation is subtraction from zero; a sum onto a zero initial value is the sum. None needs the inputs finite.
  The idealized kernel is the kernel's own text read over the extended reals (no operation was rewritten), so the
  conjunct relating the two is trivial.
-/
import proofs.«182100_j87239375716416_1_alg».proof.Defs
import proofs.«182100_j87239375716416_1_alg».proof.Proof.Gen.Kernel
import proofs.«182100_j87239375716416_1_alg».proof.Proof.Gen.Kernel.Skeleton
import proofs.«182100_j87239375716416_1_alg».proof.Proof.Gen.Kernel.Launch
import proofs.«182100_j87239375716416_1_alg».proof.Proof.Gen.Kernel.Points
import proofs.«182100_j87239375716416_1_alg».proof.Proof.Gen.Kernel.Frame
import proofs.«182100_j87239375716416_1_alg».proof.Proof.Gen.KernelIdeal
import proofs.«182100_j87239375716416_1_alg».proof.Proof.Gen.KernelIdeal.Skeleton
import proofs.«182100_j87239375716416_1_alg».proof.Proof.Gen.KernelIdeal.Launch
import proofs.«182100_j87239375716416_1_alg».proof.Proof.Gen.KernelIdeal.Points
import proofs.«182100_j87239375716416_1_alg».proof.Proof.Gen.KernelIdeal.Frame
import proofs.«182100_j87239375716416_1_alg».proof.Proof.Gen.ReferenceIdeal
import proofs.«182100_j87239375716416_1_alg».proof.Proof.Gen.Pre_finite_inputs
import proofs.«182100_j87239375716416_1_alg».proof.Proof.Gen.KernelIdeal.Value
import proofs.«182100_j87239375716416_1_alg».proof.Proof.Gen.ReferenceIdeal.Run
import proofs.«182100_j87239375716416_1_alg».proof.Proof.Gen.ReferenceIdeal.Read
import proofs.«182100_j87239375716416_1_alg».proof.Proof.Spec
import proofs.«182100_j87239375716416_1_alg».proof.Proof.RefIsG
import proofs.«182100_j87239375716416_1_alg».proof.Proof.Pieces
import proofs.«182100_j87239375716416_1_alg».proof.Proof.Payload
import proofs.«182100_j87239375716416_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the network function of the (agreeing) arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
